-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x20 : Shape := ⟨2, ![1048576, 20]⟩
abbrev S20x20 : Shape := ⟨2, ![20, 20]⟩
abbrev S20 : Shape := ⟨1, ![20]⟩
abbrev S_ : Shape := ⟨0, ![]⟩

class Facts : Prop where
  bcast_S_S1048576x20 : S_.BroadcastsInDim S1048576x20 (![] : Fin 0 → Fin S1048576x20.rank)
  reducesTo_S1048576x20_S_d0_1 : S1048576x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  main_v18

def fn {F : FTy → Type} [FloatOps F] (main_arg0 : FVec F S1048576x20 .f32) (main_arg1 : FVec F S20x20 .f32) (main_arg2 : FVec F S20 .f32) (main_arg3 : FVec F S20x20 .f32) : IVec S_ 1 :=
  let main_v0 : FVec F S1048576x20 .f32 := Host.absf main_arg0
  let main_cst : FVec F S_ .f32 := constant S_ .f32 0x7F800000#32
  let main_v1 : FVec F S1048576x20 .f32 := broadcastInDim S1048576x20 ![] bcast_S_S1048576x20 main_cst
  let main_v2 : IVec S1048576x20 1 := cmpf .olt main_v0 main_v1
  let main_c : IVec S_ 1 := constantI S_ 1 1#1
  let main_v3 : IVec S_ 1 := (fun x v => Host.reduce IntOp.andi x v reducesTo_S1048576x20_S_d0_1 h_S_) main_v2 main_c
  let main_v4 : FVec F S20x20 .f32 := Host.absf main_arg1
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x20 .f32 := Host.absf main_arg3
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_v13 main_v16
-- ==== Kernel.lean ====
abbrev S1048576x20 : Shape := ⟨2, ![1048576, 20]⟩
abbrev S20x20 : Shape := ⟨2, ![20, 20]⟩
abbrev S20 : Shape := ⟨1, ![20]⟩
abbrev S1x20 : Shape := ⟨2, ![1, 20]⟩
abbrev S2x1x1 : Shape := ⟨3, ![2, 1, 1]⟩
abbrev S8192x20 : Shape := ⟨2, ![8192, 20]⟩
abbrev S1x1x1 : Shape := ⟨3, ![1, 1, 1]⟩
abbrev S1x8192x20 : Shape := ⟨3, ![1, 8192, 20]⟩
abbrev S1 : Shape := ⟨1, ![1]⟩
abbrev S_ : Shape := ⟨0, ![]⟩

abbrev nBuf : Space → Nat
  | .hbm => 56
  | .vmem => 9
  | .smem => 0
  | _ => 0

abbrev bufTy : (tb : Table) → Fin (tcTables nBuf tb) → BufTy
  | .hbm, ⟨0, _⟩ => ⟨S1048576x20, .f32⟩
  | .hbm, ⟨1, _⟩ => ⟨S20x20, .f32⟩
  | .hbm, ⟨2, _⟩ => ⟨S20, .f32⟩
  | .hbm, ⟨3, _⟩ => ⟨S20x20, .f32⟩
  | .hbm, ⟨4, _⟩ => ⟨S20x20, .f32⟩
  | .hbm, ⟨5, _⟩ => ⟨S1x20, .f32⟩
  | .hbm, ⟨6, _⟩ => ⟨S2x1x1, .f32⟩
  | .hbm, ⟨7, _⟩ => ⟨S2x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S8192x20, .f32⟩
  | .local _ .vmem, ⟨1, _⟩ => ⟨S8192x20, .f32⟩
  | .local _ .vmem, ⟨2, _⟩ => ⟨S20x20, .f32⟩
  | .local _ .vmem, ⟨3, _⟩ => ⟨S1x20, .f32⟩
  | .local _ .vmem, ⟨4, _⟩ => ⟨S20x20, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S1048576x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S20x20_S20x20_1_0 : S20x20.Transposes [1, 0] S20x20
  shapeCasts_S20_S1x20 : S20.ShapeCasts S1x20
  inb_S1x1x1_S1x1x1_0_0_0 : ∀ a, (![0, 0, 0] : Fin 3 → Nat) a + S1x1x1.size a ≤ S1x1x1.size a
  h_S1x1x1 : 0 < S1x1x1.numel
  inb_S8192x20_S8192x20_0_0 : ∀ a, (![0, 0] : Fin 2 → Nat) a + S8192x20.size a ≤ S8192x20.size a
  h_S8192x20 : 0 < S8192x20.numel
  bitsLt_bf16_f32 : FTy.bits .bf16 < FTy.bits .f32
  inb_S20x20_S20x20_0_0 : ∀ a, (![0, 0] : Fin 2 → Nat) a + S20x20.size a ≤ S20x20.size a
  h_S20x20 : 0 < S20x20.numel
  shapeCasts_S20x20_S20x20 : S20x20.ShapeCasts S20x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S8192x20 : S1x20.Broadcasts S8192x20
  shapeCasts_S1x1x1_S1x1x1 : S1x1x1.ShapeCasts S1x1x1
  shapeCasts_S8192x20_S1x8192x20 : S8192x20.ShapeCasts S1x8192x20
  reduces_S1x8192x20_S1 : S1x8192x20.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  h_S_ : 0 < S_.numel
  bcast_S_S_ : S_.BroadcastsInDim S_ (![] : Fin 0 → Fin S_.rank)
  dot_S8192x20_S20x20_S8192x20_1_0_0_1_n_n_wf : DotDims.WF S8192x20 S20x20 S8192x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x20.size a ≤ S1048576x20.size a
  hwx0_0 : ∀ i : grid0.Coords, EltTy.bits .f32 = 32 ∨ (Rect.block (s := S1048576x20) S8192x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x20.size a ≤ S20x20.size a
  hwx0_1 : ∀ i : grid0.Coords, EltTy.bits .f32 = 32 ∨ (Rect.block (s := S20x20) S20x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x20.size a ≤ S20x20.size a
  hwx0_3 : ∀ i : grid0.Coords, EltTy.bits .f32 = 32 ∨ (Rect.block (s := S20x20) S20x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S8192x20_S20x20_S8192x20_1_0_0_1_n_n : DotDims S8192x20 S20x20 S8192x20 where
  lhsContracting := [1]
  rhsContracting := [0]
  lhsNonContracting := [0]
  rhsNonContracting := [1]
  lhsBatch := []
  rhsBatch := []
  wf := dot_S8192x20_S20x20_S8192x20_1_0_0_1_n_n_wf

abbrev win0_0 : Pipeline.Window sig grid0 :=
  Pipeline.Window.ofSpec (Memref.whole main_arg0) S8192x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x20 : Shape := ⟨2, ![1048576, 20]⟩
abbrev S20x20 : Shape := ⟨2, ![20, 20]⟩
abbrev S20 : Shape := ⟨1, ![20]⟩
abbrev S1x20 : Shape := ⟨2, ![1, 20]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S1048576x20, .f32⟩
  | .hbm, ⟨1, _⟩ => ⟨S20x20, .f32⟩
  | .hbm, ⟨2, _⟩ => ⟨S20, .f32⟩
  | .hbm, ⟨3, _⟩ => ⟨S20x20, .f32⟩
  | .hbm, ⟨4, _⟩ => ⟨S20x20, .f32⟩
  | .hbm, ⟨5, _⟩ => ⟨S1048576x20, .f32⟩
  | .hbm, ⟨6, _⟩ => ⟨S1x20, .f32⟩
  | .hbm, ⟨7, _⟩ => ⟨S1048576x20, .f32⟩
  | .hbm, ⟨8, _⟩ => ⟨S1048576x20, .f32⟩
  | .hbm, ⟨9, _⟩ => ⟨S1048576x20, .f32⟩
  | .hbm, ⟨10, _⟩ => ⟨S_, .f32⟩
  | .hbm, ⟨11, _⟩ => ⟨S1048576x20, .f32⟩
  | .hbm, ⟨12, _⟩ => ⟨S1048576x20, .f32⟩
  | .hbm, ⟨13, _⟩ => ⟨S_, .f32⟩
  | .hbm, ⟨14, _⟩ => ⟨S1048576x20, .f32⟩
  | .hbm, ⟨15, _⟩ => ⟨S1048576x20, .f32⟩
  | .hbm, ⟨16, _⟩ => ⟨S20x20, .f32⟩
  | .hbm, ⟨17, _⟩ => ⟨S1048576x20, .f32⟩
  | .hbm, ⟨18, _⟩ => ⟨S1x20, .f32⟩
  | .hbm, ⟨19, _⟩ => ⟨S1048576x20, .f32⟩
  | .hbm, ⟨20, _⟩ => ⟨S1048576x20, .f32⟩
  | .hbm, ⟨21, _⟩ => ⟨S1048576x20, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1048576x20, .f32⟩
  | .hbm, ⟨68, _⟩ => ⟨S1048576x20, .f32⟩
  | .hbm, ⟨69, _⟩ => ⟨S_, .f32⟩
  | .hbm, ⟨70, _⟩ => ⟨S_, .f32⟩
  | _, _ => ⟨S1048576x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  transposes_S20x20_S20x20_1_0 : S20x20.Transposes [1, 0] S20x20
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  reducesTo_S1048576x20_S_d0_1 : S1048576x20.ReducesTo [0, 1] S_
  h_S_ : 0 < S_.numel
  bcast_S_S_ : S_.BroadcastsInDim S_ (![] : Fin 0 → Fin S_.rank)
  dot_S1048576x20_S20x20_S1048576x20_1_0_0_1_n_n_wf : DotDims.WF S1048576x20 S20x20 S1048576x20 [1] [0] [0] [1] [] []

variable [Facts₀]

def dot_S1048576x20_S20x20_S1048576x20_1_0_0_1_n_n : DotDims S1048576x20 S20x20 S1048576x20 where
  lhsContracting := [1]
  rhsContracting := [0]
  lhsNonContracting := [0]
  rhsNonContracting := [1]
  lhsBatch := []
  rhsBatch := []
  wf := dot_S1048576x20_S20x20_S1048576x20_1_0_0_1_n_n_wf

class Facts : Prop extends Facts₀ where

variable [Facts]
-- ==== Proof.Spec.lean ====
/-
  What both programs compute, as functions of the four argument arrays, on the extended reals.

  A row `x` of the [1048576, 20] input goes through three affine layers sharing one weight matrix:
  `h₁ = x·Wᵀ + b`, `h₂ = max (h₁·R + 1, 0)`, `h = h₂·Wᵀ + b` — every product a finite sum over the twenty
  features. From the array `h` of all rows two totals are taken, `Σ h` and `Σ |h|`; the second fixes a count `k`
  (how often the array must be halved for its absolute total to fall to one) and the answer is `Σ h` scaled by
  `2^(-k)`, the power spelled `exp (ln 2 · (-k))`. The count is the same operations applied to the same total on both
  sides, so it is kept as one definition and never evaluated.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-- The shapes of the arguments and of the scalar result. -/
abbrev SX : Shape := ⟨2, ![1048576, 20]⟩
abbrev SW : Shape := ⟨2, ![20, 20]⟩
abbrev SB : Shape := ⟨1, ![20]⟩
abbrev S0 : Shape := ⟨0, ![]⟩

/-- The literals `1.0` and `0.0`, kept as their words. -/
abbrev oneLit : EReal := Ideal.ofBits .f32 0x3F800000#32
abbrev zeroLit : EReal := Ideal.ofBits .f32 0x00000000#32

/-- One affine layer on a row: `(x·M + β) j = Σ k, x k · M k j + β j`. -/
def lin (x : Fin 20 → EReal) (M : Fin 20 → Fin 20 → EReal) (β : Fin 20 → EReal) (j : Fin 20) : EReal :=
  (∑ k : Fin 20, x k * M k j) + β j

/-- A row through the three layers: `((x·Wᵀ + b)·R + 1)⁺·Wᵀ + b`. -/
def hrow (x : Fin 20 → EReal) (wt : Fin 20 → Fin 20 → EReal) (b : Fin 20 → EReal) (r : Fin 20 → Fin 20 → EReal)
    (j : Fin 20) : EReal :=
  lin (fun k => max (lin (lin x wt b) r (fun _ => oneLit) k) zeroLit) wt b j

/-- The array `h` of every row, from the argument arrays: row `n` of `X`, the weights transposed (`Wᵀ k j = W j k`). -/
def hArr (X : SX.Idx → EReal) (W : SW.Idx → EReal) (bb : SB.Idx → EReal) (R : SW.Idx → EReal) : SX.Idx → EReal :=
  fun i => hrow (fun k => X (ix2 (i 0) k)) (fun k j => W (ix2 j k)) (fun j => bb (ix1 j)) (fun k j => R (ix2 k j)) (i 1)

/-- `2^(-k)` as both programs spell it: `exp (ln2 · (-k))` with `ln2` the word `0x3F317218`. -/
def pow2neg (hb : S0.BroadcastsInDim S0 (![] : Fin 0 → Fin S0.rank)) (k : IVec S0 32) : FVec Ideal S0 .f32 :=
  Host.exp (mulf (broadcastInDim S0 ![] hb (constant (F := Ideal) S0 .f32 0x3F317218#32)) (Host.negf (sitofp .f32 k)))

/-- The scale factor from the absolute total `a`: the halving count `k` (a first guess `⌈log a / log 2⌉` on `max a 1`,
    raised by one if `a·2^(-k) > 1`, lowered by one if positive and `a·2^(-(k-1)) ≤ 1`), then `2^(-k)`. -/
def scaleOf (hb : S0.BroadcastsInDim S0 (![] : Fin 0 → Fin S0.rank)) (a : FVec Ideal S0 .f32) : FVec Ideal S0 .f32 :=
  let one : FVec Ideal S0 .f32 := constant (F := Ideal) S0 .f32 0x3F800000#32
  let k0 : IVec S0 32 := fptosi 32 (Host.ceil (Host.divf (Host.log (maximumf a one))
      (Host.log (constant (F := Ideal) S0 .f32 0x40000000#32))))
  let k1 : IVec S0 32 := select (cmpf .ogt (mulf a (pow2neg hb k0)) one) (addi k0 (constantI S0 32 1#32)) k0
  let k2 : IVec S0 32 := select (andi (cmpi .sgt k1 (constantI S0 32 0#32))
      (cmpf .ole (mulf a (pow2neg hb (subi k1 (constantI S0 32 1#32)))) one)) (subi k1 (constantI S0 32 1#32)) k1
  pow2neg hb k2

/-- The two totals over the whole array, each from the literal `0.0`. -/
def total (f : SX.Idx → EReal) : FVec Ideal S0 .f32 := fun _ => zeroLit + ∑ i : SX.Idx, f i

/-- An array of rows read at a row NUMBER (zero past the last row), so that a position inside a block of rows
    needs no bound of its own. -/
def rowAt (f : SX.Idx → EReal) (n : ℕ) (j : Fin 20) : EReal := if h : n < 1048576 then f (ix2 ⟨n, h⟩ j) else 0

/-- The total of block `n` of 8192 consecutive rows (rows `8192·n … 8192·n + 8191`), all twenty features. -/
def blockTotal (f : SX.Idx → EReal) (n : ℕ) : EReal := ∑ x : Fin 8192, ∑ j : Fin 20, rowAt f (8192 * n + x.val) j

/-- The common answer: the total of `h` times the scale factor of the total of `|h|`. -/
def result (hb : S0.BroadcastsInDim S0 (![] : Fin 0 → Fin S0.rank)) (X : SX.Idx → EReal) (W : SW.Idx → EReal)
    (bb : SB.Idx → EReal) (R : SW.Idx → EReal) : FVec Ideal S0 .f32 :=
  mulf (total (hArr X W bb R)) (scaleOf hb (total fun i => max (hArr X W bb R i) (-(hArr X W bb R i))))

end Cert.Spec

end
-- ==== Proof.KPieces.lean ====
/-
  What one grid point leaves in the two carried one-word outputs, as the body's arithmetic.

  At the first inner step of a core the body zeroes both outputs and then adds the block's totals: the output of
  sums ends at `0 + Σ h`, the output of absolute sums at `0 + Σ |h|`, over the block's 8192 rows. At every later step
  it adds the block's totals to what the step before left. Each statement below says so for one output and one of
  the two cases, over any staging buffers and any loaded blocks.
-/
import proofs.«156421_j34875134444033_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step, the output of sums: what the step before left plus the block's total. -/
theorem later_sum (c : Dev nD) (i : grid0.Coords) (a2 : Memref sig .tc .vmem S8192x20 .f32) (h2 : a2.IsWhole) (a3 : Memref sig .tc .vmem S20x20 .f32) (h3 : a3.IsWhole) (a4 : Memref sig .tc .vmem S1x20 .f32) (h4 : a4.IsWhole) (a5 : Memref sig .tc .vmem S20x20 .f32) (h5 : a5.IsWhole) (a6 : Memref sig .tc .vmem S1x1x1 .f32) (h6 : a6.IsWhole) (a7 : Memref sig .tc .vmem S1x1x1 .f32) (h7 : a7.IsWhole) (hc : ¬cond0_0 i)
    (x0 : Vec F S8192x20 .f32) (x1 : Vec F S20x20 .f32) (x2 : Vec F S1x20 .f32) (x3 : Vec F S20x20 .f32) (xo4 xo5 : Vec F S1x1x1 .f32) :
    out0_B_4 c i a2 h2 a3 h3 a4 h4 a5 h5 a6 h6 a7 h7 hc x0 x1 x2 x3 xo4 xo5 = k0_pay5 x0 x1 x2 x3 xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S8192x20) hz2, View.ld_unit_zero (S := S20x20) hz2, View.ld_unit_zero (S := S1x20) hz2,
    View.ld_unit_zero (S := S1x1x1) hz3]

/-- A later step, the output of absolute sums: what the step before left plus the block's absolute total. -/
theorem later_abs (c : Dev nD) (i : grid0.Coords) (a2 : Memref sig .tc .vmem S8192x20 .f32) (h2 : a2.IsWhole) (a3 : Memref sig .tc .vmem S20x20 .f32) (h3 : a3.IsWhole) (a4 : Memref sig .tc .vmem S1x20 .f32) (h4 : a4.IsWhole) (a5 : Memref sig .tc .vmem S20x20 .f32) (h5 : a5.IsWhole) (a6 : Memref sig .tc .vmem S1x1x1 .f32) (h6 : a6.IsWhole) (a7 : Memref sig .tc .vmem S1x1x1 .f32) (h7 : a7.IsWhole) (hc : ¬cond0_0 i)
    (x0 : Vec F S8192x20 .f32) (x1 : Vec F S20x20 .f32) (x2 : Vec F S1x20 .f32) (x3 : Vec F S20x20 .f32) (xo4 xo5 : Vec F S1x1x1 .f32) :
    out0_B_5 c i a2 h2 a3 h3 a4 h4 a5 h5 a6 h6 a7 h7 hc x0 x1 x2 x3 xo4 xo5 = k0_pay1 (k0_pay4 x0 x1 x2 x3) xo5 := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S8192x20) hz2, View.ld_unit_zero (S := S20x20) hz2, View.ld_unit_zero (S := S1x20) hz2,
    View.ld_unit_zero (S := S1x1x1) hz3]

/-- The first step of a core, the output of sums: the zero word, read back, plus the block's total. -/
theorem first_sum (c : Dev nD) (i : grid0.Coords) (a2 : Memref sig .tc .vmem S8192x20 .f32) (h2 : a2.IsWhole) (a3 : Memref sig .tc .vmem S20x20 .f32) (h3 : a3.IsWhole) (a4 : Memref sig .tc .vmem S1x20 .f32) (h4 : a4.IsWhole) (a5 : Memref sig .tc .vmem S20x20 .f32) (h5 : a5.IsWhole) (a6 : Memref sig .tc .vmem S1x1x1 .f32) (h6 : a6.IsWhole) (a7 : Memref sig .tc .vmem S1x1x1 .f32) (h7 : a7.IsWhole) (hc : cond0_0 i)
    (x0 : Vec F S8192x20 .f32) (x1 : Vec F S20x20 .f32) (x2 : Vec F S1x20 .f32) (x3 : Vec F S20x20 .f32) :
    out0_A_4 c i a2 h2 a3 h3 a4 h4 a5 h5 a6 h6 a7 h7 hc x0 x1 x2 x3 = k0_pay5 x0 x1 x2 x3 (k0_pay2 (F := F)) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S8192x20) hz2, View.ld_unit_zero (S := S20x20) hz2, View.ld_unit_zero (S := S1x20) hz2,
    View.ld_unit_zero (S := S1x1x1) hz3]

/-- The first step of a core, the output of absolute sums: the zero word, read back, plus the block's absolute total. -/
theorem first_abs (c : Dev nD) (i : grid0.Coords) (a2 : Memref sig .tc .vmem S8192x20 .f32) (h2 : a2.IsWhole) (a3 : Memref sig .tc .vmem S20x20 .f32) (h3 : a3.IsWhole) (a4 : Memref sig .tc .vmem S1x20 .f32) (h4 : a4.IsWhole) (a5 : Memref sig .tc .vmem S20x20 .f32) (h5 : a5.IsWhole) (a6 : Memref sig .tc .vmem S1x1x1 .f32) (h6 : a6.IsWhole) (a7 : Memref sig .tc .vmem S1x1x1 .f32) (h7 : a7.IsWhole) (hc : cond0_0 i)
    (x0 : Vec F S8192x20 .f32) (x1 : Vec F S20x20 .f32) (x2 : Vec F S1x20 .f32) (x3 : Vec F S20x20 .f32) :
    out0_A_5 c i a2 h2 a3 h3 a4 h4 a5 h5 a6 h6 a7 h7 hc x0 x1 x2 x3 = k0_pay1 (k0_pay4 x0 x1 x2 x3) (k0_pay3 (F := F)) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S8192x20) hz2, View.ld_unit_zero (S := S20x20) hz2, View.ld_unit_zero (S := S1x20) hz2,
    View.ld_unit_zero (S := S1x1x1) hz3]

end Cert.KernelIdeal.Pieces

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.KPayload.lean ====
/-
  The kernel body's arithmetic read at an index, on the extended reals.

  One grid step holds a block of 8192 rows of twenty features. Its stored values are, first, the block's array
  `h`: each row through the three affine layers, `((x·Wᵀ + b)·R + 1)⁺·Wᵀ + b`, every product a finite sum over
  the twenty features (a change of format is the identity, a re-shape to the same shape is the identity, the one bias
  row is read at every row, a product into the zero array is the plain sum); and second, two running totals: the old
  total plus the sum of `h` over the whole block, and the old total plus the sum of `|h| = max h (-h)` over the
  whole block (a sum over the two axes of the block re-shaped with a leading unit axis is the sum over every entry of
  the block, the re-shape only re-indexing the entries). At the first step the two totals are set to the literal zero.
-/
import proofs.«156421_j34875134444033_1_alg».proof.Proof.Gen.KernelIdeal.Skeleton
import proofs.«156421_j34875134444033_1_alg».proof.Proof.Spec
import proofs.«156421_j34875134444033_1_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Cert.Spec Idealize.ShloMosaic Idealize.ShloMosaic.ValueIdx

/-! ## The three operations that are not pointwise -/

/-- A block's product with a twenty-by-twenty matrix into the zero array, at `(p, j)`: `∑ k, a (p, k) · w (k, j)`. -/
theorem matmul_zero_apply {φ₁ φ₂ : FTy} (a : FVec Ideal S8192x20 φ₁) (w : FVec Ideal S20x20 φ₂) (p : Fin 8192)
    (j : Fin 20) :
    matmul dot_S8192x20_S20x20_S8192x20_1_0_0_1_n_n none a w (constant (F := Ideal) S8192x20 .f32 0x00000000#32) (ix2 p j)
      = ∑ k : Fin 20, a (ix2 p k) * w (ix2 k j) :=
  Cert.LibPlainProduct.matmul_zero_plain_apply (M := 8192) (K := 20) (N := 20) a w none p j

/-- The bias row read at every row of the block. -/
theorem bias_apply (b : FVec Ideal S1x20 .f32) (p : Fin 8192) (j : Fin 20) :
    broadcastTo S8192x20 b broadcasts_S1x20_S8192x20 (ix2 p j) = b (ix2 0 j) :=
  broadcastTo_1b_ab_apply b broadcasts_S1x20_S8192x20 p j

/-- A literal's word read at the exact instance. -/
theorem scalar_ofBits (w : BitVec 32) : Scalar.ofBits (F := Ideal) .f32 w = Ideal.ofBits .f32 w := rfl

/-! ## The block's array `h` -/

/-- The first layer at `(p, k)`: `(x·Wᵀ + b) k`. -/
theorem layer_apply {φ₁ φ₂ : FTy} (a : FVec Ideal S8192x20 φ₁) (w : FVec Ideal S20x20 φ₂) (b : FVec Ideal S1x20 .f32)
    (p : Fin 8192) (j : Fin 20) :
    addf (matmul dot_S8192x20_S20x20_S8192x20_1_0_0_1_n_n none a w (constant (F := Ideal) S8192x20 .f32 0x00000000#32))
        (broadcastTo S8192x20 b broadcasts_S1x20_S8192x20) (ix2 p j)
      = lin (fun k => a (ix2 p k)) (fun k j => w (ix2 k j)) (fun j => b (ix2 0 j)) j := by
  rw [addf_apply, matmul_zero_apply, bias_apply]
  rfl

/-- The block's array at `(p, j)`: row `p` of the block through the three layers, feature `j`. -/
theorem pay4_apply (x : Vec Ideal S8192x20 .f32) (wt : Vec Ideal S20x20 .f32) (b : Vec Ideal S1x20 .f32)
    (r : Vec Ideal S20x20 .f32) (p : Fin 8192) (j : Fin 20) :
    k0_pay4 (F := Ideal) x wt b r (ix2 p j)
      = hrow (fun k => x (ix2 p k)) (fun k j => wt (ix2 k j)) (fun j => b (ix2 0 j)) (fun k j => r (ix2 k j)) j := by
  unfold k0_pay4
  simp only [shapeCast_self]
  rw [layer_apply]
  simp only [truncf_apply, maximumf_apply, addf_apply, broadcast_apply, matmul_zero_apply, bias_apply, scalar_ofBits]
  rfl

/-! ## The running totals -/

/-- Every axis of the one-entry shape the block's total is taken into has extent one. -/
theorem S1_unit : ∀ a, S1.size a = 1 := by decide

/-- The block re-shaped with a leading unit axis has the same entries, so the same total. -/
theorem sum_addUnit (v : FVec Ideal S8192x20 .f32) :
    ∑ i : S1x8192x20.Idx, shapeCast S1x8192x20 v shapeCasts_S8192x20_S1x8192x20 i = ∑ i : S8192x20.Idx, v i :=
  Equiv.sum_comp (Shape.reshapeEquiv shapeCasts_S8192x20_S1x8192x20) v

/-- The sum over both axes of the re-shaped block, at its one index, is the total of the block. -/
theorem blockSum_apply (v : FVec Ideal S8192x20 .f32) (hacc : (0x00000000#32 : BitVec 32) = 0x00000000#32)
    (y : S1.Idx) :
    multiReduction .add [1, 2] S1 (shapeCast S1x8192x20 v shapeCasts_S8192x20_S1x8192x20) 0x00000000#32
        reduces_S1x8192x20_S1 (.inl rfl) hacc y
      = ∑ i : S8192x20.Idx, v i :=
  (Ideal.multiReduction_add_total (shapeCast S1x8192x20 v shapeCasts_S8192x20_S1x8192x20) 0x00000000#32
    reduces_S1x8192x20_S1 S1_unit (.inl rfl) hacc y).trans (sum_addUnit v)

/-- A running total's update: the old total plus the block's total, at the one entry. -/
theorem accumulate_apply (v : FVec Ideal S8192x20 .f32) (acc : Vec Ideal S1x1x1 .f32) (y : S1x1x1.Idx) :
    addf (shapeCast S1x1x1 acc shapeCasts_S1x1x1_S1x1x1)
        (broadcast S1x1x1 (extractAt ![0, 0, 0]
          (shapeCast S1x1x1 (multiReduction .add [1, 2] S1 (shapeCast S1x8192x20 v shapeCasts_S8192x20_S1x8192x20)
            0x00000000#32 reduces_S1x8192x20_S1 (.inl rfl) rfl) shapeCasts_S1_S1x1x1) inpos_S1x1x1_p0_0_0)) y
      = acc y + ∑ i : S8192x20.Idx, v i := by
  rw [addf_apply, shapeCast_self, broadcast_apply]
  exact congrArg (acc y + ·) (blockSum_apply v rfl _)

/-- The running total of `h` after the step: the old total plus the total of the block's array. -/
theorem pay5_apply (x : Vec Ideal S8192x20 .f32) (wt : Vec Ideal S20x20 .f32) (b : Vec Ideal S1x20 .f32)
    (r : Vec Ideal S20x20 .f32) (acc : Vec Ideal S1x1x1 .f32) (y : S1x1x1.Idx) :
    k0_pay5 (F := Ideal) x wt b r acc y = acc y + ∑ i : S8192x20.Idx, k0_pay4 (F := Ideal) x wt b r i :=
  accumulate_apply (k0_pay4 (F := Ideal) x wt b r) acc y

/-- The running total of `|h|` after the step: the old total plus the total of `max h (-h)` over the block. -/
theorem pay1_apply (v : FVec Ideal S8192x20 .f32) (acc : Vec Ideal S1x1x1 .f32) (y : S1x1x1.Idx) :
    k0_pay1 (F := Ideal) v acc y = acc y + ∑ i : S8192x20.Idx, max (v i) (-(v i)) :=
  accumulate_apply (absf v) acc y

/-! ## The first step's zeros -/

/-- At the first step the total of `h` is set to the literal zero … -/
theorem pay2_apply (y : S1x1x1.Idx) : k0_pay2 (F := Ideal) y = zeroLit := rfl

/-- … and so is the total of `|h|`. -/
theorem pay3_apply (y : S1x1x1.Idx) : k0_pay3 (F := Ideal) y = zeroLit := rfl

end Cert.KernelIdeal.Payload

end
-- ==== Proof.KBlocks.lean ====
/-
  What each input window's block holds, entry by entry, in terms of the argument arrays.

  The row window at grid point `t` is rows `8192·t … 8192·t + 8191` of `x` (its block index along the rows is the
  point's own number, `64·core + step`). The other three windows are whole arrays fetched once: the weights as the host
  transposed them before the call (entry `(k, j)` is `W (j, k)`), the bias as the host re-shaped it to one row (entry
  `(0, j)` is `b j`), and the second weight matrix as it was launched.
-/
import proofs.«156421_j34875134444033_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The row window's block index at point `t`: the point's number along the rows, zero along the features. -/
theorem rows_index : ∀ t : Fin cfg0.N, win0_0.index t 0 = t.val ∧ win0_0.index t 1 = 0 :=
  (by decide +kernel : ∀ t : Fin grid0.N, win0_0.index t 0 = t.val ∧ win0_0.index t 1 = 0)

/-- The three whole-array windows sit at block index zero at every point. -/
theorem whole_index : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0))

/-- Row `p` of the block at point `t` is row `8192·t + p` of `x`. -/
theorem rows_read (c : Dev nD) (t : Fin cfg0.N) (p : Fin 8192) (k : Fin 20) (hp : 8192 * t.val + p.val < 1048576) :
    (iblk m c 0 t : Vec F S8192x20 .f32) (ix2 p k) = m ((c : Thread nD τ).loc main_arg0) (ix2 ⟨8192 * t.val + p.val, hp⟩ k) := by
  unfold iblk
  rw [View.read_apply]
  show V m c main_arg0 _ = _
  refine (congrFun (V_main_arg0 m c) _).trans ?_
  congr 1
  funext a
  apply Fin.ext
  match a with
  | ⟨0, _⟩ => show win0_0.index t 0 * 8192 + 1 * p.val = 8192 * t.val + p.val; rw [(rows_index t).1]; omega
  | ⟨1, _⟩ => show win0_0.index t 1 * 20 + 1 * k.val = k.val; rw [(rows_index t).2]; omega

/-- The second weight matrix is read as launched. -/
theorem second_read (c : Dev nD) (t : Fin cfg0.N) (k j : Fin 20) :
    (iblk m c 3 t : Vec F S20x20 .f32) (ix2 k j) = m ((c : Thread nD τ).loc main_arg3) (ix2 k j) := by
  unfold iblk
  rw [View.read_apply]
  show V m c main_arg3 _ = _
  refine (congrFun (V_main_arg3 m c) _).trans ?_
  congr 1
  funext a
  apply Fin.ext
  match a with
  | ⟨0, _⟩ => show win0_3.index t 0 * 20 + 1 * k.val = k.val; rw [(whole_index t).2.2.1]; omega
  | ⟨1, _⟩ => show win0_3.index t 1 * 20 + 1 * j.val = j.val; rw [(whole_index t).2.2.2]; omega

/-- What the host wrote before the call: the transposed weights and the bias as one row. -/
theorem transposed_eq (c : Dev nD) :
    (V m c main_v0 : S20x20.Idx → F .f32) = transpose S20x20 [1, 0] (m ((c : Thread nD τ).loc main_arg1)) transposes_S20x20_S20x20_1_0 := by
  show StableHlo.after hostOps0 (fun b => m (c, b)) (Proc.devRef .tc main_v0) = _
  after_results

theorem bias_row_eq (c : Dev nD) :
    (V m c main_v1 : S1x20.Idx → F .f32) = shapeCast S1x20 (m ((c : Thread nD τ).loc main_arg2)) shapeCasts_S20_S1x20 := by
  show StableHlo.after hostOps0 (fun b => m (c, b)) (Proc.devRef .tc main_v1) = _
  after_results
  rfl

/-- The weight window at `(k, j)` is `W (j, k)`: the host transposed the weights before the call. -/
theorem weights_read (c : Dev nD) (t : Fin cfg0.N) (k j : Fin 20) :
    (iblk m c 1 t : Vec F S20x20 .f32) (ix2 k j) = m ((c : Thread nD τ).loc main_arg1) (ix2 j k) := by
  unfold iblk
  rw [View.read_apply]
  show V m c main_v0 _ = _
  refine (congrFun (transposed_eq m c) _).trans ?_
  refine transpose_apply [1, 0] _ transposes_S20x20_S20x20_1_0 _ (ix2 j k) fun b => ?_
  match b with
  | ⟨0, _⟩ => show k.val = win0_1.index t 0 * 20 + 1 * k.val; rw [(whole_index t).1.1]; omega
  | ⟨1, _⟩ => show j.val = win0_1.index t 1 * 20 + 1 * j.val; rw [(whole_index t).1.2]; omega

/-- The bias window at `(0, j)` is `b j`: the host re-shaped the bias to one row before the call. -/
theorem bias_read (c : Dev nD) (t : Fin cfg0.N) (j : Fin 20) :
    (iblk m c 2 t : Vec F S1x20 .f32) (ix2 0 j) = m ((c : Thread nD τ).loc main_arg2) (ix1 j) := by
  unfold iblk
  rw [View.read_apply]
  show V m c main_v1 _ = _
  refine (congrFun (bias_row_eq m c) _).trans ?_
  refine shapeCast_apply _ shapeCasts_S20_S1x20 _ (ix1 j) ?_
  rw [Shape.rowMajor_val_one, Shape.rowMajor_val_two]
  show j.val = (win0_2.index t 0 * 1 + 1 * 0) * 20 + (win0_2.index t 1 * 20 + 1 * j.val)
  rw [(whole_index t).2.1.1, (whole_index t).2.1.2]; omega

end Cert.KernelIdeal.Blocks

end
-- ==== Proof.KValue.lean ====
/-
  What the call leaves in its two output arrays, in terms of the argument arrays.

  Grid point `t = 64·q + s` (core `q`, inner step `s`) holds rows `8192·t …` of `x`; the block's array is `h` on
  those rows, so its total is the block total of `h`. The carried output of core `q` after step `s` is therefore
  `0 + Σ_{s' ≤ s}` of the block totals of points `64·q + s'` — by induction on the point: the first step of a core
  starts from the zero word, each later step adds to what the step before left. The output is written back after
  step 63 only, into entry `q` of the [2, 1, 1] array; so that entry ends at `0 + Σ_{s < 64}` of the core's block
  totals. The same for `|h|`.
-/
import proofs.«156421_j34875134444033_1_alg».proof.Proof.Gen.KernelIdeal.Frame
import proofs.«156421_j34875134444033_1_alg».proof.Proof.Spec
import proofs.«156421_j34875134444033_1_alg».proof.Proof.KPieces
import proofs.«156421_j34875134444033_1_alg».proof.Proof.KPayload
import proofs.«156421_j34875134444033_1_alg».proof.Proof.KBlocks
import Idealize.ShloMosaic.Lib.Pipeline.Value
import Idealize.ShloMosaic.Lib.ValueIdx
import Idealize.ShloMosaic.Lib.Tactic
import Mathlib.Algebra.BigOperators.Intervals

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ)

/-- The array `h` of the launch's arguments, and its absolute values. -/
abbrev hOf (c : Dev nD) : SX.Idx → EReal :=
  hArr (m ((c : Thread nD τ).loc main_arg0)) (m ((c : Thread nD τ).loc main_arg1)) (m ((c : Thread nD τ).loc main_arg2))
    (m ((c : Thread nD τ).loc main_arg3))
abbrev absOf (c : Dev nD) : SX.Idx → EReal := fun i => max (hOf m c i) (-(hOf m c i))

/-- The block's array at point `t`: the body's arithmetic on the four windows' blocks. -/
abbrev hblk (c : Dev nD) (t : Fin cfg0.N) : FVec Ideal S8192x20 .f32 :=
  k0_pay4 (F := Ideal) (iblk m c 0 t) (iblk m c 1 t) (iblk m c 2 t) (iblk m c 3 t)

theorem row_lt (t : Fin cfg0.N) (p : Fin 8192) : 8192 * t.val + p.val < 1048576 := by
  have := t.isLt; have h : cfg0.N = 128 := N_0; have := p.isLt; omega

/-- Rows that agree entry by entry go through the layers alike. -/
theorem hrow_congr {x x' : Fin 20 → EReal} {w w' : Fin 20 → Fin 20 → EReal} {b b' : Fin 20 → EReal}
    {r r' : Fin 20 → Fin 20 → EReal} (hx : ∀ k, x k = x' k) (hw : ∀ k j, w k j = w' k j) (hb : ∀ j, b j = b' j)
    (hr : ∀ k j, r k j = r' k j) (j : Fin 20) : hrow x w b r j = hrow x' w' b' r' j := by
  rw [show x = x' from funext hx, show w = w' from funext fun k => funext (hw k), show b = b' from funext hb,
    show r = r' from funext fun k => funext (hr k)]

/-- Entry `(p, j)` of the block's array at point `t` is `h` at row `8192·t + p`. -/
theorem hblk_apply (c : Dev nD) (t : Fin cfg0.N) (p : Fin 8192) (j : Fin 20) :
    hblk m c t (ix2 p j) = hOf m c (ix2 ⟨8192 * t.val + p.val, row_lt t p⟩ j) := by
  refine (Payload.pay4_apply (iblk m c 0 t) (iblk m c 1 t) (iblk m c 2 t) (iblk m c 3 t) p j).trans ?_
  show _ = hrow _ _ _ _ _
  exact hrow_congr (fun k => Blocks.rows_read m c t p k (row_lt t p)) (fun k j => Blocks.weights_read m c t k j)
    (fun j => Blocks.bias_read m c t j) (fun k j => Blocks.second_read m c t k j) j

/-- So the block's total is the block total of `h`, -/
theorem hblk_total (c : Dev nD) (t : Fin cfg0.N) : ∑ i : S8192x20.Idx, hblk m c t i = blockTotal (hOf m c) t.val := by
  rw [sum_idx2]
  unfold blockTotal
  refine Finset.sum_congr rfl fun p _ => Finset.sum_congr rfl fun j _ => ?_
  rw [hblk_apply]
  unfold rowAt
  rw [dif_pos (row_lt t p)]

/-- and its absolute total the block total of `|h|`. -/
theorem hblk_abs_total (c : Dev nD) (t : Fin cfg0.N) :
    ∑ i : S8192x20.Idx, max (hblk m c t i) (-(hblk m c t i)) = blockTotal (absOf m c) t.val := by
  rw [sum_idx2]
  unfold blockTotal
  refine Finset.sum_congr rfl fun p _ => Finset.sum_congr rfl fun j _ => ?_
  rw [hblk_apply]
  unfold rowAt
  rw [dif_pos (row_lt t p)]

/-! ## The two carried outputs, point by point -/

/-- At the first step of a core both outputs hold the zero word plus the block's totals. -/
theorem at_first (c : Dev nD) (t : Fin cfg0.N) (h0 : t.val % 64 = 0) :
    outsAt0 m c t.val t.isLt
      = (k0_pay5 (F := Ideal) (iblk m c 0 t) (iblk m c 1 t) (iblk m c 2 t) (iblk m c 3 t) (k0_pay2 (F := Ideal)), k0_pay1 (F := Ideal) (hblk m c t) (k0_pay3 (F := Ideal))) :=
  (outsAt0_A m c t h0).trans (congrArg₂ Prod.mk
    (Pieces.first_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t))
    (Pieces.first_abs (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)))

set_option maxHeartbeats 1000000 in
/-- At a later step both hold what the step before left plus the block's totals. -/
theorem at_later (c : Dev nD) (t : Fin cfg0.N) (h0 : ¬t.val % 64 = 0) :
    outsAt0 m c t.val t.isLt
      = (k0_pay5 (F := Ideal) (iblk m c 0 t) (iblk m c 1 t) (iblk m c 2 t) (iblk m c 3 t) (outsAt0 m c (t.val - 1) (Nat.lt_of_le_of_lt (Nat.sub_le _ _) t.isLt)).1, k0_pay1 (F := Ideal) (hblk m c t) (outsAt0 m c (t.val - 1) (Nat.lt_of_le_of_lt (Nat.sub_le _ _) t.isLt)).2) :=
by
  rw [outsAt0_B m c t h0, Pieces.later_sum, Pieces.later_abs]

/-- The running total of a core after point `n`: from the zero word, the block totals of the core's points up to `n`. -/
def runTotal (f : SX.Idx → EReal) (n : ℕ) : EReal :=
  zeroLit + ∑ s ∈ Finset.range (n % 64 + 1), blockTotal f (64 * (n / 64) + s)

theorem runTotal_first (f : SX.Idx → EReal) (n : ℕ) (h0 : n % 64 = 0) : runTotal f n = zeroLit + blockTotal f n := by
  unfold runTotal
  rw [h0, Finset.sum_range_one, Nat.add_zero, Nat.mul_div_cancel' (Nat.dvd_of_mod_eq_zero h0)]

theorem runTotal_later (f : SX.Idx → EReal) (n : ℕ) (h0 : ¬(n + 1) % 64 = 0) :
    runTotal f (n + 1) = runTotal f n + blockTotal f (n + 1) := by
  have h1 : (n + 1) / 64 = n / 64 := by omega
  have h2 : (n + 1) % 64 = n % 64 + 1 := by omega
  have h3 : 64 * (n / 64) + (n % 64 + 1) = n + 1 := by omega
  unfold runTotal
  generalize zeroLit = z
  rw [h1, h2, Finset.sum_range_succ, h3, add_assoc]

/-- What the two outputs hold after point `n`: the running totals of `h` and of `|h|`. -/
theorem outs_at (c : Dev nD) : ∀ (n : ℕ) (h : n < cfg0.N) (y : S1x1x1.Idx),
    (outsAt0 m c n h).1 y = runTotal (hOf m c) n ∧ (outsAt0 m c n h).2 y = runTotal (absOf m c) n
  | 0, h, y => by
    rw [at_first m c ⟨0, h⟩ rfl]
    dsimp only
    rw [Payload.pay5_apply, Payload.pay1_apply, Payload.pay2_apply, Payload.pay3_apply, hblk_total, hblk_abs_total,
      runTotal_first _ _ rfl, runTotal_first _ _ rfl]
    exact ⟨rfl, rfl⟩
  | n + 1, h, y => by
    by_cases h0 : (n + 1) % 64 = 0
    · rw [at_first m c ⟨n + 1, h⟩ h0]
      dsimp only
      rw [Payload.pay5_apply, Payload.pay1_apply, Payload.pay2_apply, Payload.pay3_apply, hblk_total, hblk_abs_total,
        runTotal_first _ _ h0, runTotal_first _ _ h0]
      exact ⟨rfl, rfl⟩
    · have ih := outs_at c n (Nat.lt_of_succ_lt h) y
      rw [at_later m c ⟨n + 1, h⟩ h0]
      dsimp only
      rw [Payload.pay5_apply, Payload.pay1_apply, hblk_total, hblk_abs_total, runTotal_later _ _ h0, runTotal_later _ _ h0]
      exact ⟨congrArg (· + _) ih.1, congrArg (· + _) ih.2⟩

end Cert.KernelIdeal.KValue

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.Algebra.lean ====
/-
  The algebraic laws on the extended reals that join the two arrangements of the computation: a common nonnegative
  finite factor moves out of a sum; the scale factor `2^(-k)` is such a factor; the total over all rows is the total,
  block by block, of 128 blocks of 8192 rows, themselves taken as two halves of 64 blocks; and the answer is the
  literal zero plus the sum of the scaled entries.
-/
import proofs.«156421_j34875134444033_1_alg».proof.Proof.Spec
import proofs.«156421_j34875134444033_1_alg».proof.Proof.LibBlockSum
import Idealize.ShloMosaic.PureOps.Ideal.Laws
import Idealize.ShloMosaic.Lib.ValueIdx
import Mathlib.Data.EReal.Operations
import Mathlib.Analysis.SpecialFunctions.Exp

noncomputable section

open scoped BigOperators

namespace Cert.Algebra

open Cert.Spec Idealize.ShloMosaic Idealize.ShloMosaic.ValueIdx

/-! ## A nonnegative finite factor moves out of a sum -/

/-- Multiplication on the right by a nonnegative finite extended real distributes over any finite sum, whatever the
    terms are (infinite ones included). -/
theorem sum_mul_const {ι : Type*} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-! ## The scale factor is nonnegative and finite -/

/-- The word `0x3F317218` (the single-precision `ln 2`) denotes a real number. -/
theorem ln2_real : ∃ l : ℝ, Ideal.ofBits .f32 0x3F317218#32 = (l : EReal) := by
  unfold Ideal.ofBits Ideal.ieee
  simp only []
  rw [if_neg (by decide), if_neg (by decide)]
  exact ⟨_, rfl⟩

/-- `2^(-k)` read at the one index: the exponential of `ln 2` times minus the integer `k`. -/
theorem pow2neg_apply (hb : S0.BroadcastsInDim S0 (![] : Fin 0 → Fin S0.rank)) (k : IVec S0 32) :
    pow2neg hb k ix0 = Ideal.exp (Ideal.ofBits .f32 0x3F317218#32 * -(((k ix0).toInt : ℝ) : EReal)) := rfl

/-- `2^(-k)` is the exponential of a real number. -/
theorem pow2neg_real (hb : S0.BroadcastsInDim S0 (![] : Fin 0 → Fin S0.rank)) (k : IVec S0 32) :
    ∃ r : ℝ, pow2neg hb k ix0 = ((Real.exp r : ℝ) : EReal) := by
  obtain ⟨l, hl⟩ := ln2_real
  refine ⟨l * -((k ix0).toInt : ℝ), ?_⟩
  rw [pow2neg_apply, hl, ← EReal.coe_neg, ← EReal.coe_mul]
  rfl

/-- `2^(-k)` is nonnegative … -/
theorem pow2neg_nonneg (hb : S0.BroadcastsInDim S0 (![] : Fin 0 → Fin S0.rank)) (k : IVec S0 32) :
    0 ≤ pow2neg hb k ix0 := by
  obtain ⟨r, hr⟩ := pow2neg_real hb k
  rw [hr]
  exact EReal.coe_nonneg.mpr (Real.exp_pos r).le

/-- … and finite. -/
theorem pow2neg_ne_top (hb : S0.BroadcastsInDim S0 (![] : Fin 0 → Fin S0.rank)) (k : IVec S0 32) :
    pow2neg hb k ix0 ≠ ⊤ := by
  obtain ⟨r, hr⟩ := pow2neg_real hb k
  rw [hr]
  exact EReal.coe_ne_top _

/-- The scale factor is `2^(-k)` for the halving count `k` of the absolute total, so it is nonnegative … -/
theorem scaleOf_nonneg (hb : S0.BroadcastsInDim S0 (![] : Fin 0 → Fin S0.rank)) (a : FVec Ideal S0 .f32) :
    0 ≤ scaleOf hb a ix0 := by
  unfold scaleOf
  exact pow2neg_nonneg hb _

/-- … and finite, whatever the count is. -/
theorem scaleOf_ne_top (hb : S0.BroadcastsInDim S0 (![] : Fin 0 → Fin S0.rank)) (a : FVec Ideal S0 .f32) :
    scaleOf hb a ix0 ≠ ⊤ := by
  unfold scaleOf
  exact pow2neg_ne_top hb _

/-! ## The total over all rows, block by block -/

/-- A row's total, read at the row's number. -/
theorem row_total (f : SX.Idx → EReal) (n : Fin 1048576) :
    ∑ j : Fin 20, f (ix2 n j) = ∑ j : Fin 20, rowAt f n.val j := by
  refine Finset.sum_congr rfl fun j _ => ?_
  unfold rowAt
  rw [dif_pos n.isLt]

/-- The whole total as a sum over the first 1048576 row numbers. -/
theorem total_rows (f : SX.Idx → EReal) :
    ∑ i : SX.Idx, f i = ∑ n ∈ Finset.range 1048576, ∑ j : Fin 20, rowAt f n j := by
  rw [sum_idx2, Finset.sum_congr rfl (fun n _ => row_total f n)]
  exact Fin.sum_univ_eq_sum_range (fun n => ∑ j : Fin 20, rowAt f n j) 1048576

/-- A block's total as a sum over the 8192 positions inside the block. -/
theorem blockTotal_range (f : SX.Idx → EReal) (s : ℕ) :
    blockTotal f s = ∑ x ∈ Finset.range 8192, ∑ j : Fin 20, rowAt f (8192 * s + x) j := by
  unfold blockTotal
  exact Fin.sum_univ_eq_sum_range (fun x => ∑ j : Fin 20, rowAt f (8192 * s + x) j) 8192

/-- The total of an array of 1048576 rows of twenty features is the total of its 128 blocks of 8192 consecutive rows,
    the blocks taken as two halves of 64: row `n` is row `x` of block `s` for `n = 8192·s + x`, and block `s` is block
    `s'` of half `q` for `s = 64·q + s'`. Addition of extended reals is commutative and associative, so the regrouping
    needs nothing of the entries. -/
theorem total_blocks (f : SX.Idx → EReal) :
    ∑ i : SX.Idx, f i = ∑ q : Fin 2, ∑ s ∈ Finset.range 64, blockTotal f (64 * q.val + s) := by
  have hrows : Finset.range 1048576 = Finset.range (128 * 8192) := congrArg Finset.range (by norm_num)
  have hblocks : Finset.range 128 = Finset.range (2 * 64) := congrArg Finset.range (by norm_num)
  rw [total_rows, hrows, BlockSum.sum_range_mul (fun n => ∑ j : Fin 20, rowAt f n j) 128 8192,
    Finset.sum_congr rfl (fun s _ => (blockTotal_range f s).symm), hblocks,
    BlockSum.sum_range_mul (blockTotal f) 2 64]
  exact (Fin.sum_univ_eq_sum_range (fun q => ∑ s ∈ Finset.range 64, blockTotal f (64 * q + s)) 2).symm

/-! ## The answer as a sum of scaled entries -/

/-- A total read at the one index: the literal zero plus the sum of all entries. -/
theorem total_apply (f : SX.Idx → EReal) : total f ix0 = zeroLit + ∑ i : SX.Idx, f i := rfl

/-- The answer read at the one index: the total of `h` times the scale factor of the total of `|h|`. -/
theorem result_apply (hb : S0.BroadcastsInDim S0 (![] : Fin 0 → Fin S0.rank)) (X : SX.Idx → EReal)
    (W : SW.Idx → EReal) (bb : SB.Idx → EReal) (R : SW.Idx → EReal) :
    result hb X W bb R ix0
      = total (hArr X W bb R) ix0
          * scaleOf hb (total fun i => max (hArr X W bb R i) (-(hArr X W bb R i))) ix0 := by
  unfold result
  exact mulf_apply _ _ _

/-- The answer, the total of `h` times the scale factor, is the literal zero plus the sum of the entries of `h` each
    times the scale factor: the literal zero is `0` and the factor, nonnegative and finite, moves inside the sum. -/
theorem result_scaled (hb : S0.BroadcastsInDim S0 (![] : Fin 0 → Fin S0.rank)) (X : SX.Idx → EReal)
    (W : SW.Idx → EReal) (bb : SB.Idx → EReal) (R : SW.Idx → EReal) :
    result hb X W bb R ix0
      = zeroLit + ∑ i : SX.Idx, hArr X W bb R i
          * scaleOf hb (total fun i => max (hArr X W bb R i) (-(hArr X W bb R i))) ix0 := by
  have hz : zeroLit = 0 := Ideal.ofBits_zero_f32
  rw [result_apply, total_apply, hz, zero_add, zero_add]
  exact (sum_mul_const Finset.univ (hArr X W bb R) _ (scaleOf_nonneg hb _) (scaleOf_ne_top hb _)).symm

end Cert.Algebra

end
-- ==== Proof.KFinal.lean ====
/-
  The call's two output arrays after the run.

  Core `q`'s output block is written back once, after its inner step 63 (point `64·q + 63`), into entry `q` of the
  [2, 1, 1] array; what it then holds is the zero word plus the block totals of the core's 64 points. The two
  write-backs cover the array. Summed over the two cores, the block totals of all 128 points are the total over every
  row.
-/
import proofs.«156421_j34875134444033_1_alg».proof.Proof.KValue
import proofs.«156421_j34875134444033_1_alg».proof.Proof.Algebra
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.Spec Cert.KernelIdeal.KValue

variable (m : (ℓ : Loc nD τ sig) → Buf (Elt Ideal) ℓ) (ρ : Dev nD → PrngReg)

/-- What entry `q` of an output array ends at: from the zero word, the block totals of core `q`'s 64 points. -/
abbrev perCore (f : SX.Idx → EReal) : S2x1x1.Idx → EReal :=
  fun i => zeroLit + ∑ s ∈ Finset.range 64, blockTotal f (64 * (i 0).val + s)

/-- The output windows' block index at point `t` is the core's number, and their blocks are whole words. -/
theorem out_index : ∀ t : Fin cfg0.N,
    (win0_4.index t 0 = t.val / 64 ∧ win0_4.index t 1 = 0 ∧ win0_4.index t 2 = 0)
    ∧ (win0_5.index t 0 = t.val / 64 ∧ win0_5.index t 1 = 0 ∧ win0_5.index t 2 = 0)
    ∧ (∀ a, win0_4.xsize (grid0.coords t) a = 1) ∧ (∀ a, win0_5.xsize (grid0.coords t) a = 1) :=
  (by decide +kernel : ∀ t : Fin grid0.N,
    (win0_4.index t 0 = t.val / 64 ∧ win0_4.index t 1 = 0 ∧ win0_4.index t 2 = 0)
    ∧ (win0_5.index t 0 = t.val / 64 ∧ win0_5.index t 1 = 0 ∧ win0_5.index t 2 = 0)
    ∧ (∀ a, win0_4.xsize (grid0.coords t) a = 1) ∧ (∀ a, win0_5.xsize (grid0.coords t) a = 1))

theorem runTotal_last (f : SX.Idx → EReal) (n : ℕ) (h : n % 64 = 63) :
    runTotal f n = zeroLit + ∑ s ∈ Finset.range 64, blockTotal f (64 * (n / 64) + s) := by
  unfold runTotal; rw [h]

/-- Entry `q` of the array under the block of a point of core `q`, for window 4. -/
theorem perCore_emb4 (f : SX.Idx → EReal) (t : Fin cfg0.N) (y : S1x1x1.Idx) :
    perCore f (((cfg0.win 4).blk t).view.emb y) = zeroLit + ∑ s ∈ Finset.range 64, blockTotal f (64 * (t.val / 64) + s) := by
  show zeroLit + ∑ s ∈ Finset.range 64, blockTotal f (64 * (win0_4.index t 0 * 1 + 1 * (y 0).val) + s) = _
  have hy : (y 0).val = 0 := by have : (y 0).val < 1 := (y 0).isLt; omega
  rw [(out_index t).1.1, hy, Nat.mul_one, Nat.mul_zero, Nat.add_zero]

/-- What the write-back after a core's last step writes, for the output of sums. -/
theorem flushed_sum (c : Dev nD) (t : Fin cfg0.N) (hf : (cfg0.win 4).flush t = true) :
    (dats m 0 c).flushed 4 t = ((cfg0.win 4).blk t).view.read (Elt Ideal) (perCore (hOf m c)) := by
  have h63 : t.val % 64 = 63 := (flush0_4 t).mp hf
  funext y
  show (cfg0.win 4).cut (grid0.coords t) ((dats m 0 c).after 4 t) y = _
  rw [after0_4]
  show (outsAt0 m c t.val t.isLt).1 _ = _
  rw [(outs_at m c t.val t.isLt _).1, View.read_apply, runTotal_last _ _ h63]
  show _ = perCore (hOf m c) _
  exact (perCore_emb4 (hOf m c) t y).symm

/-- Every entry of the array is under the block of its core's last point. -/
theorem cover_sum (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 1 := (i 2).isLt
  have hN : cfg0.N = 128 := N_0
  have ht : 64 * (i 0 : Nat) + 63 < cfg0.N := by omega
  refine ⟨⟨64 * (i 0 : Nat) + 63, ht⟩, (flush0_4 _).mpr (by show (64 * (i 0 : Nat) + 63) % 64 = 63; omega), ?_⟩
  obtain ⟨e0, e1, e2⟩ := (out_index ⟨64 * (i 0 : Nat) + 63, ht⟩).1
  have hx := (out_index ⟨64 * (i 0 : Nat) + 63, ht⟩).2.2.1
  have e0' : win0_4.index ⟨64 * (i 0 : Nat) + 63, ht⟩ 0 = (i 0 : Nat) := by
    rw [e0]; show (64 * (i 0 : Nat) + 63) / 64 = _; omega
  show i ∈ ((View.whole main_v2_0).slice (win0_4.rect ⟨64 * (i 0 : Nat) + 63, ht⟩)).set
  rw [View.set_slice_whole, Rect.mem_set_unit]
  intro a
  match a with
  | ⟨0, _⟩ =>
    show win0_4.index ⟨64 * (i 0 : Nat) + 63, ht⟩ 0 * win0_4.size 0 ≤ (i 0 : Nat)
      ∧ (i 0 : Nat) < win0_4.index ⟨64 * (i 0 : Nat) + 63, ht⟩ 0 * win0_4.size 0 + win0_4.xsize (grid0.coords ⟨64 * (i 0 : Nat) + 63, ht⟩) 0
    rw [e0', hx 0]
    show (i 0 : Nat) * 1 ≤ (i 0 : Nat) ∧ (i 0 : Nat) < (i 0 : Nat) * 1 + 1
    omega
  | ⟨1, _⟩ =>
    show win0_4.index ⟨64 * (i 0 : Nat) + 63, ht⟩ 1 * win0_4.size 1 ≤ (i 1 : Nat)
      ∧ (i 1 : Nat) < win0_4.index ⟨64 * (i 0 : Nat) + 63, ht⟩ 1 * win0_4.size 1 + win0_4.xsize (grid0.coords ⟨64 * (i 0 : Nat) + 63, ht⟩) 1
    rw [e1, hx 1]
    show 0 * 1 ≤ (i 1 : Nat) ∧ (i 1 : Nat) < 0 * 1 + 1
    omega
  | ⟨2, _⟩ =>
    show win0_4.index ⟨64 * (i 0 : Nat) + 63, ht⟩ 2 * win0_4.size 2 ≤ (i 2 : Nat)
      ∧ (i 2 : Nat) < win0_4.index ⟨64 * (i 0 : Nat) + 63, ht⟩ 2 * win0_4.size 2 + win0_4.xsize (grid0.coords ⟨64 * (i 0 : Nat) + 63, ht⟩) 2
    rw [e2, hx 2]
    show 0 * 1 ≤ (i 2 : Nat) ∧ (i 2 : Nat) < 0 * 1 + 1
    omega

/-- So the array of sums ends, entry by entry, at the cores' totals. -/
theorem final_sum (c : Dev nD) : (dats m 0 c).arrAt 4 cfg0.N = perCore (hOf m c) :=
  (dats m 0 c).arrAt_eq_of_cover 4 (perCore (hOf m c)) (flushed_sum m c) (cover_sum c)

/-- Entry `q` of the array under the block of a point of core `q`, for window 5. -/
theorem perCore_emb5 (f : SX.Idx → EReal) (t : Fin cfg0.N) (y : S1x1x1.Idx) :
    perCore f (((cfg0.win 5).blk t).view.emb y) = zeroLit + ∑ s ∈ Finset.range 64, blockTotal f (64 * (t.val / 64) + s) := by
  show zeroLit + ∑ s ∈ Finset.range 64, blockTotal f (64 * (win0_5.index t 0 * 1 + 1 * (y 0).val) + s) = _
  have hy : (y 0).val = 0 := by have : (y 0).val < 1 := (y 0).isLt; omega
  rw [(out_index t).2.1.1, hy, Nat.mul_one, Nat.mul_zero, Nat.add_zero]

/-- What the write-back after a core's last step writes, for the output of absolute sums. -/
theorem flushed_abs (c : Dev nD) (t : Fin cfg0.N) (hf : (cfg0.win 5).flush t = true) :
    (dats m 0 c).flushed 5 t = ((cfg0.win 5).blk t).view.read (Elt Ideal) (perCore (absOf m c)) := by
  have h63 : t.val % 64 = 63 := (flush0_5 t).mp hf
  funext y
  show (cfg0.win 5).cut (grid0.coords t) ((dats m 0 c).after 5 t) y = _
  rw [after0_5]
  show (outsAt0 m c t.val t.isLt).2 _ = _
  rw [(outs_at m c t.val t.isLt _).2, View.read_apply, runTotal_last _ _ h63]
  show _ = perCore (absOf m c) _
  exact (perCore_emb5 (absOf m c) t y).symm

/-- Every entry of the array is under the block of its core's last point. -/
theorem cover_abs (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2 := (i 0).isLt
  have h1 : (i 1 : Nat) < 1 := (i 1).isLt
  have h2 : (i 2 : Nat) < 1 := (i 2).isLt
  have hN : cfg0.N = 128 := N_0
  have ht : 64 * (i 0 : Nat) + 63 < cfg0.N := by omega
  refine ⟨⟨64 * (i 0 : Nat) + 63, ht⟩, (flush0_5 _).mpr (by show (64 * (i 0 : Nat) + 63) % 64 = 63; omega), ?_⟩
  obtain ⟨e0, e1, e2⟩ := (out_index ⟨64 * (i 0 : Nat) + 63, ht⟩).2.1
  have hx := (out_index ⟨64 * (i 0 : Nat) + 63, ht⟩).2.2.2
  have e0' : win0_5.index ⟨64 * (i 0 : Nat) + 63, ht⟩ 0 = (i 0 : Nat) := by
    rw [e0]; show (64 * (i 0 : Nat) + 63) / 64 = _; omega
  show i ∈ ((View.whole main_v2_1).slice (win0_5.rect ⟨64 * (i 0 : Nat) + 63, ht⟩)).set
  rw [View.set_slice_whole, Rect.mem_set_unit]
  intro a
  match a with
  | ⟨0, _⟩ =>
    show win0_5.index ⟨64 * (i 0 : Nat) + 63, ht⟩ 0 * win0_5.size 0 ≤ (i 0 : Nat)
      ∧ (i 0 : Nat) < win0_5.index ⟨64 * (i 0 : Nat) + 63, ht⟩ 0 * win0_5.size 0 + win0_5.xsize (grid0.coords ⟨64 * (i 0 : Nat) + 63, ht⟩) 0
    rw [e0', hx 0]
    show (i 0 : Nat) * 1 ≤ (i 0 : Nat) ∧ (i 0 : Nat) < (i 0 : Nat) * 1 + 1
    omega
  | ⟨1, _⟩ =>
    show win0_5.index ⟨64 * (i 0 : Nat) + 63, ht⟩ 1 * win0_5.size 1 ≤ (i 1 : Nat)
      ∧ (i 1 : Nat) < win0_5.index ⟨64 * (i 0 : Nat) + 63, ht⟩ 1 * win0_5.size 1 + win0_5.xsize (grid0.coords ⟨64 * (i 0 : Nat) + 63, ht⟩) 1
    rw [e1, hx 1]
    show 0 * 1 ≤ (i 1 : Nat) ∧ (i 1 : Nat) < 0 * 1 + 1
    omega
  | ⟨2, _⟩ =>
    show win0_5.index ⟨64 * (i 0 : Nat) + 63, ht⟩ 2 * win0_5.size 2 ≤ (i 2 : Nat)
      ∧ (i 2 : Nat) < win0_5.index ⟨64 * (i 0 : Nat) + 63, ht⟩ 2 * win0_5.size 2 + win0_5.xsize (grid0.coords ⟨64 * (i 0 : Nat) + 63, ht⟩) 2
    rw [e2, hx 2]
    show 0 * 1 ≤ (i 2 : Nat) ∧ (i 2 : Nat) < 0 * 1 + 1
    omega

/-- So the array of absolute sums ends, entry by entry, at the cores' totals. -/
theorem final_abs (c : Dev nD) : (dats m 0 c).arrAt 5 cfg0.N = perCore (absOf m c) :=
  (dats m 0 c).arrAt_eq_of_cover 5 (perCore (absOf m c)) (flushed_abs m c) (cover_abs c)

/-! ## Over the two cores: the whole total -/

/-- An entry of a [2, 1, 1] array is its core's number. -/
def coreEquiv : S2x1x1.Idx ≃ Fin 2 where
  toFun i := i 0
  invFun q := ix3 q 0 0
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- The cores' totals add up to the total over every row: 128 blocks of 8192 rows, 64 blocks a core. -/
theorem sum_perCore (f : SX.Idx → EReal) : ∑ i : S2x1x1.Idx, perCore f i = ∑ i : SX.Idx, f i := by
  rw [Cert.Algebra.total_blocks, ← Equiv.sum_comp coreEquiv.symm]
  refine Finset.sum_congr rfl fun q _ => ?_
  show zeroLit + ∑ s ∈ Finset.range 64, blockTotal f (64 * q.val + s) = _
  rw [show zeroLit = (0 : EReal) from Ideal.ofBits_zero_f32, zero_add]

end Cert.KernelIdeal.KFinal

end
-- ==== Proof.KTail.lean ====
/-
  The host operations after the call, as one function of the two output arrays.

  The call leaves two [2, 1, 1] arrays: per core the total of `h` and the total of `|h|`. The host adds up each over
  the cores from `0.0`, computes the scale factor from the absolute total, and multiplies the total by it: the result
  buffer holds `(Σ) · scale (Σ| |)`.
-/
import proofs.«156421_j34875134444033_1_alg».proof.Proof.Gen.KernelIdeal.Frame
import proofs.«156421_j34875134444033_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

variable (m : (ℓ : Loc nD τ sig) → Buf (Elt Ideal) ℓ)

/-- The sum over the cores of a per-core output array, from `0.0`. -/
abbrev overCores (a : S2x1x1.Idx → EReal) : FVec Ideal S_ .f32 :=
  Host.reduceAdd (F := Ideal) a (constant (F := Ideal) S_ .f32 0x00000000#32) reducesTo_S2x1x1_S_d0_1_2 h_S_

/-- The first selection of the count, as a plain three-operand operation on its buffers. -/
abbrev firstSelect : HloOp τ sig (Elt Ideal) :=
  StableHlo.ternary main_v17 main_v18 main_v10 main_v19
    (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal))
    (StableHlo.TRef.of main_v17 : StableHlo.TRef sig ⟨S_, .i1⟩).dev (StableHlo.TRef.of main_v18 : StableHlo.TRef sig ⟨S_, .i32⟩).dev
    (StableHlo.TRef.of main_v10 : StableHlo.TRef sig ⟨S_, .i32⟩).dev (StableHlo.TRef.of main_v19 : StableHlo.TRef sig ⟨S_, .i32⟩).dev

/-- The second selection of the count, likewise. -/
abbrev secondSelect : HloOp τ sig (Elt Ideal) :=
  StableHlo.ternary main_v29 main_v30 main_v19 main_v31
    (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal))
    (StableHlo.TRef.of main_v29 : StableHlo.TRef sig ⟨S_, .i1⟩).dev (StableHlo.TRef.of main_v30 : StableHlo.TRef sig ⟨S_, .i32⟩).dev
    (StableHlo.TRef.of main_v19 : StableHlo.TRef sig ⟨S_, .i32⟩).dev (StableHlo.TRef.of main_v31 : StableHlo.TRef sig ⟨S_, .i32⟩).dev

/-- The called selection's one operation is that operation: its typed references carry the buffers' own types. -/
theorem first_select_eq : (hostOps1_1 : List (HloOp τ sig (Elt Ideal))) = [firstSelect] := rfl
theorem second_select_eq : (hostOps1_3 : List (HloOp τ sig (Elt Ideal))) = [secondSelect] := rfl

set_option maxHeartbeats 8000000 in
set_option maxRecDepth 8192 in
/-- The result buffer after the host's last line: the total over the cores times the scale factor of the absolute total. -/
theorem result_eq (c : Dev nD) :
    Pipeline.afterTail₀ cfgs (dats m) 0 (V0 m) [hostOps1, hostOps1_1, hostOps1_2, hostOps1_3, hostOps1_4] c main_v37
      = mulf (overCores ((dats m 0 c).arrAt 4 cfg0.N)) (Cert.Spec.scaleOf bcast_S_S_ (overCores ((dats m 0 c).arrAt 5 cfg0.N))) := by
  unfold Pipeline.afterTail₀
  rw [first_select_eq, second_select_eq]
  simp only [hostOps1, hostOps1_2, hostOps1_4, firstSelect, secondSelect, List.flatten_cons, List.flatten_nil, List.append_nil,
    List.cons_append, List.nil_append]
  after_results_simp
  have e4 : Pipeline.withArrays (cfgs 0).spec c (V0 m c) (fun w => (dats m 0 c).arrAt w (cfgs 0).N) (Proc.devRef .tc main_v2_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v2_1)
      = (dats m 0 c).arrAt 5 cfg0.N := Pipeline.withArrays_arr spec0 launch0.win.arr_inj c _ _ 5
  rw [e4, e5]
  dsimp only [overCores]
  generalize Host.reduceAdd (F := Ideal) ((dats m 0 c).arrAt 4 cfg0.N) (constant (F := Ideal) S_ .f32 0x00000000#32) reducesTo_S2x1x1_S_d0_1_2 h_S_ = a4
  generalize Host.reduceAdd (F := Ideal) ((dats m 0 c).arrAt 5 cfg0.N) (constant (F := Ideal) S_ .f32 0x00000000#32) reducesTo_S2x1x1_S_d0_1_2 h_S_ = a5
  unfold Cert.Spec.scaleOf Cert.Spec.pow2neg
  rfl

end Cert.KernelIdeal.Tail

end
-- ==== Proof.KRun.lean ====
/-
  The kernel's run read as a value.

  The host adds each output array over the two cores from `0.0`: the two sums are the totals of `h` and of `|h|` over
  every row. The result buffer is the first times the scale factor of the second: the specification's answer. The
  argument arrays end as launched.
-/
import proofs.«156421_j34875134444033_1_alg».proof.Proof.KFinal
import proofs.«156421_j34875134444033_1_alg».proof.Proof.KTail

noncomputable section

open scoped BigOperators
open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.Spec Cert.KernelIdeal.KValue Cert.KernelIdeal.KFinal

variable (m : (ℓ : Loc nD τ sig) → Buf (Elt Ideal) ℓ) (ρ : Dev nD → PrngReg)

/-- The host's sum over the cores of the cores' totals is the total over every row, from the literal zero. -/
theorem overCores_perCore (f : SX.Idx → EReal) : Tail.overCores (perCore f) = total f := by
  funext i
  show Host.reduceAdd (F := Ideal) (perCore f) (constant (F := Ideal) S_ .f32 0x00000000#32) reducesTo_S2x1x1_S_d0_1_2 h_S_ i = _
  simp only [Host.reduceAdd, Ideal.hostReduceAdd_def]
  rw [Ideal.hostReduceAdd_total reducesTo_S2x1x1_S_d0_1_2 (fun b => b.elim0) (perCore f) _ i, sum_perCore]
  rfl

/-- The result buffer after the host's last line is the specification's answer of the launch's arguments. -/
theorem result_value (c : Dev nD) :
    Pipeline.afterTail₀ cfgs (dats m) 0 (V0 m) [hostOps1, hostOps1_1, hostOps1_2, hostOps1_3, hostOps1_4] c main_v37
      = result bcast_S_S_ (m ((c.tc : Thread nD τ).loc main_arg0)) (m ((c.tc : Thread nD τ).loc main_arg1)) (m ((c.tc : Thread nD τ).loc main_arg2)) (m ((c.tc : Thread nD τ).loc main_arg3)) := by
  rw [Tail.result_eq, final_sum, final_abs, overCores_perCore, overCores_perCore]
  unfold result
  rfl

/-- Every weakly fair execution of the idealized kernel ends with the result at the specification's answer and the
    arguments as launched. -/
theorem run : θ_run defs (onTc (τ := τ) (main (F := Ideal))) ⟨m, fun _ => 0, ρ⟩ (fun r => ∀ c : Dev nD,
      r.2.mem ((c.tc : Thread nD τ).loc main_v37)
        = result bcast_S_S_ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v37 (Pipeline.mem_restRefs_of main_v37 (by decide) (by decide))).trans (result_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KRun

end
-- ==== Proof.RefValue.lean ====
import proofs.«156421_j34875134444033_1_alg».proof.Proof.Gen.ReferenceIdeal.Read
import proofs.«156421_j34875134444033_1_alg».proof.Proof.Spec
import Idealize.ShloMosaic.Lib.ValueIdx
import Idealize.ShloMosaic.PureOps.Ideal.Laws

/-!
  What the reference program computes, as the specification's function of the four argument arrays, on the extended
  reals.

  Entry `(n, j)` of the array before the totals is row `n` of the input through the three affine layers,
  `((x·Wᵀ + b)·R + 1)⁺·Wᵀ + b` at feature `j`: each product is the finite sum over the twenty contracted features, the
  transposed weights read at `(k, j)` are the weights at `(j, k)`, the bias laid along the rows is read at its entry
  `j`, and the two literals laid over the whole array are read as themselves. The absolute total is the literal zero
  plus the sum of `max h (-h)` over every entry. The operations between that total and the power of two are, one for
  one and in the same order, the specification's scale factor, so the two agree by unfolding and nothing is
  evaluated. The result is the literal zero plus the sum over every entry of `h` times that one scalar.
-/

noncomputable section

open scoped BigOperators

namespace Cert.ReferenceIdeal.RefValue

open Cert.ReferenceIdeal Cert.ReferenceIdeal.Gen Cert.ReferenceIdeal.Read Cert.Spec Idealize.ShloMosaic
  Idealize.ShloMosaic.TcCoe Idealize.SL.Sem Idealize.ShloMosaic.ValueIdx

variable (X : SX.Idx → EReal) (W : SW.Idx → EReal) (bb : SB.Idx → EReal) (R : SW.Idx → EReal)

/-! ## Where each operation reads its operands, at entry `(n, j)` -/

theorem left_first (n : Fin 1048576) (j k : Fin 20) : lidx_main_v1 (ix2 n j) k = ix2 n k := by
  funext a; match a with | ⟨0, _⟩ => rfl | ⟨1, _⟩ => rfl

theorem right_first (n : Fin 1048576) (j k : Fin 20) : idx_main_v0 (ridx_main_v1 (ix2 n j) k) = ix2 j k := by
  funext a; match a with | ⟨0, _⟩ => rfl | ⟨1, _⟩ => rfl

theorem bias_first (n : Fin 1048576) (j : Fin 20) : idx_main_v2 (idx_main_v3 (ix2 n j)) = ix1 j := by
  funext a; match a with | ⟨0, _⟩ => rfl

theorem left_second (n : Fin 1048576) (j k : Fin 20) : lidx_main_v5 (ix2 n j) k = ix2 n k := by
  funext a; match a with | ⟨0, _⟩ => rfl | ⟨1, _⟩ => rfl

theorem right_second (n : Fin 1048576) (j k : Fin 20) : ridx_main_v5 (ix2 n j) k = ix2 k j := by
  funext a; match a with | ⟨0, _⟩ => rfl | ⟨1, _⟩ => rfl

theorem left_third (n : Fin 1048576) (j k : Fin 20) : lidx_main_v10 (ix2 n j) k = ix2 n k := by
  funext a; match a with | ⟨0, _⟩ => rfl | ⟨1, _⟩ => rfl

theorem right_third (n : Fin 1048576) (j k : Fin 20) : idx_main_v9 (ridx_main_v10 (ix2 n j) k) = ix2 j k := by
  funext a; match a with | ⟨0, _⟩ => rfl | ⟨1, _⟩ => rfl

theorem bias_third (n : Fin 1048576) (j : Fin 20) : idx_main_v11 (idx_main_v12 (ix2 n j)) = ix1 j := by
  funext a; match a with | ⟨0, _⟩ => rfl

/-! ## The three layers -/

/-- The first layer at `(n, j)`: `(x·Wᵀ + b) j` of row `n`. -/
theorem first_layer_apply (n : Fin 1048576) (j : Fin 20) :
    val_main_v4 (F := Ideal) X W bb (ix2 n j)
      = lin (fun k => X (ix2 n k)) (fun k j => W (ix2 j k)) (fun j => bb (ix1 j)) j := by
  rw [val_main_v4_apply, val_main_v1_apply, val_main_v3_apply, val_main_v2_apply, bias_first]
  unfold lin
  refine congrArg (· + bb (ix1 j)) (Finset.sum_congr rfl fun k _ => ?_)
  rw [val_main_v0_apply, left_first, right_first]

/-- The second layer at `(n, j)`: `max (h₁·R + 1) 0`. -/
theorem second_layer_apply (n : Fin 1048576) (j : Fin 20) :
    val_main_v8 (F := Ideal) X W bb R (ix2 n j)
      = max (lin (lin (fun k => X (ix2 n k)) (fun k j => W (ix2 j k)) (fun j => bb (ix1 j)))
          (fun k j => R (ix2 k j)) (fun _ => oneLit) j) zeroLit := by
  rw [val_main_v8_apply, val_main_v7_apply, val_main_v5_apply, val_main_v6_apply, val_main_call0_v0_apply]
  unfold lin
  refine congrArg (fun s => max (s + oneLit) zeroLit) (Finset.sum_congr rfl fun k _ => ?_)
  rw [left_second, right_second, first_layer_apply]
  rfl

/-- The third layer at `(n, j)`: the row through all three layers. -/
theorem third_layer_apply (n : Fin 1048576) (j : Fin 20) :
    val_main_v13 (F := Ideal) X W bb R (ix2 n j)
      = hrow (fun k => X (ix2 n k)) (fun k j => W (ix2 j k)) (fun j => bb (ix1 j)) (fun k j => R (ix2 k j)) j := by
  rw [val_main_v13_apply, val_main_v10_apply, val_main_v12_apply, val_main_v11_apply, bias_third]
  unfold hrow
  refine congrArg (· + bb (ix1 j)) (Finset.sum_congr rfl fun k _ => ?_)
  rw [val_main_v9_apply, left_third, right_third, second_layer_apply]

/-- The array before the totals is the specification's `h`. -/
theorem h_apply (i : SX.Idx) : val_main_v13 (F := Ideal) X W bb R i = hArr X W bb R i := by
  obtain ⟨n, j, rfl⟩ : ∃ (n : Fin 1048576) (j : Fin 20), i = ix2 n j := ⟨i 0, i 1, eq_ix2 i⟩
  exact third_layer_apply X W bb R n j

/-! ## The absolute total and the scale factor -/

/-- The total of `|h|` from the literal zero. -/
theorem abs_total_eq :
    val_main_v15 (F := Ideal) X W bb R = total fun i => max (hArr X W bb R i) (-(hArr X W bb R i)) := by
  funext i
  rw [val_main_v15_apply]
  unfold total
  refine congrArg (zeroLit + ·) (Finset.sum_congr rfl fun j _ => ?_)
  rw [val_main_v14_apply, h_apply]
  rfl

/-- The operations from the absolute total to the power of two are the specification's scale factor of it. -/
theorem scale_eq :
    val_main_v47 (F := Ideal) X W bb R = scaleOf bcast_S_S_ (val_main_v15 (F := Ideal) X W bb R) := by
  unfold val_main_v47 val_main_v46 val_main_v45 val_main_cst_10 val_main_v44 val_main_v43 val_main_v42 val_main_v41
    val_main_c_9 val_main_v40 val_main_v39 val_main_cst_8 val_main_v38 val_main_v37 val_main_v36 val_main_v35
    val_main_cst_7 val_main_v34 val_main_v33 val_main_v32 val_main_c_6 val_main_v31 val_main_c_5 val_main_v30
    val_main_v29 val_main_c val_main_v28 val_main_cst_4 val_main_v27 val_main_v26 val_main_v25 val_main_v24
    val_main_cst_3 val_main_v23 val_main_v22 val_main_v21 val_main_v20 val_main_v19 val_main_v18 val_main_cst_2
    val_main_v17 val_main_v16 val_main_cst_1
  generalize val_main_v15 (F := Ideal) X W bb R = a
  unfold scaleOf pow2neg
  rfl

/-! ## The result -/

/-- The reference's result: the total, from the literal zero, of `h` times the scale factor of the total of `|h|`. -/
theorem ref_result (m : (ℓ : Loc nD τ sig) → Buf (Elt Ideal) ℓ) (c : Dev nD) :
    Cert.ReferenceIdeal.Value.res_out0 (F := Ideal) m c
      = fun _ => zeroLit + ∑ i : SX.Idx,
          hArr (m ((c.tc : Thread nD τ).loc main_arg0)) (m ((c.tc : Thread nD τ).loc main_arg1))
              (m ((c.tc : Thread nD τ).loc main_arg2)) (m ((c.tc : Thread nD τ).loc main_arg3)) i
            * scaleOf bcast_S_S_ (total fun i =>
                max (hArr (m ((c.tc : Thread nD τ).loc main_arg0)) (m ((c.tc : Thread nD τ).loc main_arg1))
                      (m ((c.tc : Thread nD τ).loc main_arg2)) (m ((c.tc : Thread nD τ).loc main_arg3)) i)
                  (-(hArr (m ((c.tc : Thread nD τ).loc main_arg0)) (m ((c.tc : Thread nD τ).loc main_arg1))
                      (m ((c.tc : Thread nD τ).loc main_arg2)) (m ((c.tc : Thread nD τ).loc main_arg3)) i))) ix0 := by
  show Cert.ReferenceIdeal.Value.res_main_v50 m c = _
  rw [val_main_v50_eq]
  generalize m ((c.tc : Thread nD τ).loc main_arg0) = X
  generalize m ((c.tc : Thread nD τ).loc main_arg1) = W
  generalize m ((c.tc : Thread nD τ).loc main_arg2) = bb
  generalize m ((c.tc : Thread nD τ).loc main_arg3) = R
  funext i
  rw [val_main_v50_apply]
  refine congrArg (zeroLit + ·) (Finset.sum_congr rfl fun j _ => ?_)
  rw [val_main_v49_apply, val_main_v48_apply, h_apply, scale_eq, abs_total_eq]
  rfl

end Cert.ReferenceIdeal.RefValue
end
-- ==== Proof.lean ====
/-
  The certificate: the Pallas kernel that reduces a [1048576, 20] input through three shared-weight affine layers
  to one scaled total, against its jnp reference, over the extended reals.

  Both programs form the same array `h = ((x·Wᵀ + b)·R + 1)⁺·Wᵀ + b`, row by row, and the same halving count `k`
  from the total of `|h|`. The reference scales every entry by `2^(-k)` and then sums; the kernel sums first — per
  block of 8192 rows inside the call, per core over 64 blocks in a carried one-word output, over the two cores on the
  host — and scales the total. The two agree because addition of extended reals may be regrouped freely and because
  `2^(-k)`, the exponential of a real number, is nonnegative and finite, so it moves out of the sum; no input need be
  finite for that. The three frames are the generated ones (the reference's is its generated run with the result
  dropped), and the idealization rewrote nothing.
-/
import proofs.«156421_j34875134444033_1_alg».proof.Defs
import proofs.«156421_j34875134444033_1_alg».proof.Proof.Gen.Kernel
import proofs.«156421_j34875134444033_1_alg».proof.Proof.Gen.Kernel.Skeleton
import proofs.«156421_j34875134444033_1_alg».proof.Proof.Gen.Kernel.Launch
import proofs.«156421_j34875134444033_1_alg».proof.Proof.Gen.Kernel.Points
import proofs.«156421_j34875134444033_1_alg».proof.Proof.Gen.Kernel.Frame
import proofs.«156421_j34875134444033_1_alg».proof.Proof.Gen.KernelIdeal
import proofs.«156421_j34875134444033_1_alg».proof.Proof.Gen.KernelIdeal.Skeleton
import proofs.«156421_j34875134444033_1_alg».proof.Proof.Gen.KernelIdeal.Launch
import proofs.«156421_j34875134444033_1_alg».proof.Proof.Gen.KernelIdeal.Points
import proofs.«156421_j34875134444033_1_alg».proof.Proof.Gen.KernelIdeal.Frame
import proofs.«156421_j34875134444033_1_alg».proof.Proof.Gen.ReferenceIdeal
import proofs.«156421_j34875134444033_1_alg».proof.Proof.Gen.ReferenceIdeal.Run
import proofs.«156421_j34875134444033_1_alg».proof.Proof.Gen.Pre_finite_inputs
import proofs.«156421_j34875134444033_1_alg».proof.Proof.KRun
import proofs.«156421_j34875134444033_1_alg».proof.Proof.RefValue
import proofs.«156421_j34875134444033_1_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel (hKernel := Cert.Kernel.Gen.facts) (hPre_finite_inputs := Cert.Pre_finite_inputs.Gen.facts) :=
  fun m ρ _ => Cert.Kernel.Gen.frame m ρ

theorem frame_kernel_ideal :
    Cert.frame_KernelIdeal (hKernelIdeal := Cert.KernelIdeal.Gen.facts) (hPre_finite_inputs := Cert.Pre_finite_inputs.Gen.facts) :=
  fun m ρ _ => Cert.KernelIdeal.Gen.frame m ρ

theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the specification's answer of the launch's arguments: the kernel's by its frame
    run read as a value, the reference's by its generated run, its term the answer with the scale factor inside the
    sum, which is the same extended real. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_result m' c).trans ?_
  rw [(hagree c).1, (hagree c).2.1, (hagree c).2.2.1, (hagree c).2.2.2]
  funext i
  rw [eq_ix0 i]
  exact (Cert.Algebra.result_scaled _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
